-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_
  bcast_S1024_S1024x1_0 : S1024.BroadcastsInDim S1024x1 (![0] : Fin 1 → Fin S1024x1.rank)
  concatenates_S1024x1_S1024x1_S1024x2_d1 : Shape.Concatenates [S1024x1, S1024x1] S1024x2 1
  gather_S1024x100000_S1024x2_S1024_n_01_n_n_01_1_11_wf : GatherDims.WF S1024x100000 S1024x2 S1024 [] [0, 1] [] [0, 1] [] 1 ![1, 1]

variable [Facts]

def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf
def fn_part1 {F : FTy → Type} [FloatOps F] (main_arg0 : FVec F S1024x100000 .f32) (main_arg1 : IVec S1024 32) (main_v10 : IVec S_ 1) (main_v16 : IVec S1024 32) : IVec S_ 1 :=
  let main_c_5 : IVec S_ 32 := constantI S_ 32 0#32
  let main_v17 : IVec S1024 32 := broadcastInDim S1024 ![] bcast_S_S1024 main_c_5
  let main_v18 : IVec S1024 1 := cmpi .slt main_arg1 main_v17
  let main_c_6 : IVec S_ 32 := constantI S_ 32 100000#32
  let main_v19 : IVec S1024 32 := broadcastInDim S1024 ![] bcast_S_S1024 main_c_6
  let main_v20 : IVec S1024 32 := addi main_arg1 main_v19
  let main_v21 : IVec S1024 32 := select main_v18 main_v20 main_arg1
  let main_v22 : IVec S1024x1 32 := broadcastInDim S1024x1 ![0] bcast_S1024_S1024x1_0 main_v16
  let main_v23 : IVec S1024x1 32 := broadcastInDim S1024x1 ![0] bcast_S1024_S1024x1_0 main_v21
  let main_v24 : IVec S1024x2 32 := (fun a b => concatenate S1024x2 1 [⟨S1024x1, a⟩, ⟨S1024x1, b⟩] concatenates_S1024x1_S1024x1_S1024x2_d1) main_v22 main_v23
  let main_v25 : FVec F S1024 .f32 := (fun x i => Host.gather gather_S1024x100000_S1024x2_S1024_n_01_n_n_01_1_11 x i) main_arg0 main_v24
  let main_cst_7 : FVec F S_ .f32 := constant S_ .f32 0x3F800000#32
  let main_v26 : FVec F S1024 .f32 := broadcastInDim S1024 ![] bcast_S_S1024 main_cst_7
  let main_v27 : IVec S1024 1 := cmpf .ole main_v25 main_v26
  let main_c_8 : IVec S_ 1 := constantI S_ 1 1#1
  let main_v28 : IVec S_ 1 := (fun x v => Host.reduce IntOp.andi x v reducesTo_S1024_S_d0 h_S_) main_v27 main_c_8
  let main_v29 : IVec S_ 1 := andi main_v10 main_v28
  main_v29

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 100000#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  let main_v11 : IVec S1024 32 := iotaInDim S1024 32 0
  let main_c_3 : IVec S_ 32 := constantI S_ 32 0#32
  let main_v12 : IVec S1024 32 := broadcastInDim S1024 ![] bcast_S_S1024 main_c_3
  let main_v13 : IVec S1024 1 := cmpi .slt main_v11 main_v12
  let main_c_4 : IVec S_ 32 := constantI S_ 32 1024#32
  let main_v14 : IVec S1024 32 := broadcastInDim S1024 ![] bcast_S_S1024 main_c_4
  let main_v15 : IVec S1024 32 := addi main_v11 main_v14
  let main_v16 : IVec S1024 32 := select main_v13 main_v15 main_v11
  fn_part1 (F := F) main_arg0 main_arg1 main_v10 main_v16
-- ==== Kernel.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S16x100000 : Shape := ⟨2, ![16, 100000]⟩
abbrev S16x1 : Shape := ⟨2, ![16, 1]⟩

abbrev nBuf : Space → Nat
  | .hbm => 57
  | .vmem => 8
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .i1⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024x1, .f32⟩
  | .hbm, ⟨55, _⟩ => ⟨S1024x1, .i32⟩
  | .hbm, ⟨56, _⟩ => ⟨S1024x100000, .f32⟩
  | .local _ .vmem, ⟨0, _⟩ => ⟨S16x100000, .f32⟩
  | .local _ .vmem, ⟨1, _⟩ => ⟨S16x100000, .f32⟩
  | .local _ .vmem, ⟨2, _⟩ => ⟨S16x1, .i32⟩
  | .local _ .vmem, ⟨3, _⟩ => ⟨S16x1, .i32⟩
  | .local _ .vmem, ⟨4, _⟩ => ⟨S16x1, .f32⟩
  | .local _ .vmem, ⟨5, _⟩ => ⟨S16x1, .f32⟩
  | .local _ .vmem, ⟨6, _⟩ => ⟨S16x100000, .f32⟩
  | .local _ .vmem, ⟨7, _⟩ => ⟨S16x100000, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  shapeCasts_S1024_S1024x1 : S1024.ShapeCasts S1024x1
  inb_S16x100000_S16x100000_0_0 : ∀ a, (![0, 0] : Fin 2 → Nat) a + S16x100000.size a ≤ S16x100000.size a
  h_S16x100000 : 0 < S16x100000.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  iota_S16x100000_d1_w32 : S16x100000.Iotas .tc 32 [1]
  broadcasts_S16x1_S16x100000 : S16x1.Broadcasts S16x100000
  gather_S1024x100000_S1024x2_S1024_n_01_n_n_01_1_11_wf : GatherDims.WF S1024x100000 S1024x2 S1024 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x100000.size a ≤ S1024x100000.size a
  hwx0_0 : ∀ i : grid0.Coords, EltTy.bits .f32 = 32 ∨ (Rect.block (s := S1024x100000) S16x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S1024x1.size a
  hwx0_1 : ∀ i : grid0.Coords, EltTy.bits .i32 = 32 ∨ (Rect.block (s := S1024x1) S16x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S1024x1.size a
  hwx0_2 : ∀ i : grid0.Coords, EltTy.bits .f32 = 32 ∨ (Rect.block (s := S1024x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x100000.size a ≤ S1024x100000.size a
  hwx0_3 : ∀ i : grid0.Coords, EltTy.bits .f32 = 32 ∨ (Rect.block (s := S1024x100000) S16x100000.size (cc0_transform_3 i) (hinb0_3 i)).WholeWords (EltTy.packing .f32)

variable [Facts₀]

def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf

abbrev win0_0 : Pipeline.Window sig grid0 :=
  Pipeline.Window.ofSpec (Memref.whole main_arg0) S16x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S16x100000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 89
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .i32⟩
  | .hbm, ⟨3, _⟩ => ⟨S_, .f32⟩
  | .hbm, ⟨4, _⟩ => ⟨S1024x100000, .f32⟩
  | .hbm, ⟨5, _⟩ => ⟨S1024x100000, .i1⟩
  | .hbm, ⟨6, _⟩ => ⟨S1024x100000, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1, .i32⟩
  | .hbm, ⟨23, _⟩ => ⟨S1024x2, .i32⟩
  | .hbm, ⟨24, _⟩ => ⟨S_, .f32⟩
  | .hbm, ⟨25, _⟩ => ⟨S1024, .f32⟩
  | .hbm, ⟨26, _⟩ => ⟨S1024x100000, .f32⟩
  | .hbm, ⟨27, _⟩ => ⟨S_, .f32⟩
  | .hbm, ⟨28, _⟩ => ⟨S1024x100000, .f32⟩
  | .hbm, ⟨29, _⟩ => ⟨S1024x100000, .f32⟩
  | .hbm, ⟨30, _⟩ => ⟨S1024x100000, .f32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S_, .i32⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S1024x1, .i32⟩
  | .hbm, ⟨47, _⟩ => ⟨S1024x2, .i32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .i1⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S_, .i32⟩
  | .hbm, ⟨76, _⟩ => ⟨S1024, .i32⟩
  | .hbm, ⟨77, _⟩ => ⟨S1024, .i1⟩
  | .hbm, ⟨78, _⟩ => ⟨S_, .i32⟩
  | .hbm, ⟨79, _⟩ => ⟨S1024, .i32⟩
  | .hbm, ⟨80, _⟩ => ⟨S1024, .i32⟩
  | .hbm, ⟨81, _⟩ => ⟨S1024, .i32⟩
  | .hbm, ⟨82, _⟩ => ⟨S1024x1, .i32⟩
  | .hbm, ⟨83, _⟩ => ⟨S1024x1, .i32⟩
  | .hbm, ⟨84, _⟩ => ⟨S1024x2, .i32⟩
  | .hbm, ⟨85, _⟩ => ⟨S1024x100000, .f32⟩
  | .hbm, ⟨86, _⟩ => ⟨S_, .f32⟩
  | .hbm, ⟨87, _⟩ => ⟨S1024x100000, .f32⟩
  | .hbm, ⟨88, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_14 : Ref sig .tc := ⟨.hbm, 68, rfl⟩
abbrev main_v50 : Ref sig .tc := ⟨.hbm, 69, rfl⟩
abbrev main_v51 : Ref sig .tc := ⟨.hbm, 70, rfl⟩
abbrev main_c_15 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_16 : Ref sig .tc := ⟨.hbm, 75, rfl⟩
abbrev main_v55 : Ref sig .tc := ⟨.hbm, 76, rfl⟩
abbrev main_v56 : Ref sig .tc := ⟨.hbm, 77, rfl⟩
abbrev main_c_17 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_18 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  bcast_S_S1024x100000 : S_.BroadcastsInDim S1024x100000 (![] : Fin 0 → Fin S1024x100000.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  scatter_S1024x100000_S1024x2_S1024_n_01_01_1_wf : ScatterDims.WF S1024x100000 S1024x2 S1024 [] [0, 1] [0, 1] 1
  gather_S1024x100000_S1024x2_S1024_n_01_n_n_01_1_11_wf : GatherDims.WF S1024x100000 S1024x2 S1024 [] [0, 1] [] [0, 1] [] 1 ![1, 1]

variable [Facts₀]

def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf
def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf

class Facts : Prop extends Facts₀ where

variable [Facts]
-- ==== Proof.Spec.lean ====
/-
  THE SPECIFICATION: the margin loss as one function of the argument arrays, and the two facts about the inputs under
  which the two programs compute it.

  For a row `r` with label `ℓ r` and target cosine `t = x[r, ℓ r]`, the result row is
    at the label's column     64 · (if t > cos(π − m) then t·cos m − √(1 − t²)·sin m else t − m·sin(π − m)),
    at every other column j   64 · (0 if x[r, j] > 0.3 else x[r, j]).
  The kernel computes `√(max (1 − t², 0))`, the reference `√(1 − t²)` and `(1 − [x > 0.3]) · x`; the forms agree where
  `t ≤ 1` (`marginRef_eq`) and on every extended real (`filterRef_eq`).
-/
import Idealize.ShloMosaic.PureOps.Ideal
import Idealize.ShloMosaic.Lib.ValueIdx
import Idealize.ShloMosaic.Lib.StableHlo.Predicate

noncomputable section

namespace Cert.Margin

open Idealize.ShloMosaic Idealize.ShloMosaic.ValueIdx

/-- The logits' shape, the labels' shape, and the shape of a per-row column. -/
abbrev SX : Shape := ⟨2, ![1024, 100000]⟩
abbrev SL : Shape := ⟨1, ![1024]⟩
abbrev SC : Shape := ⟨2, ![1024, 1]⟩

/-! ## The literals, as the extended reals their words denote -/

/-- 0.3, the interclass threshold. -/
abbrev cThresh : EReal := Ideal.ofBits .f32 0x3E99999A#32
/-- cos m, sin m, cos(π − m) = −cos m, m · sin(π − m), for the margin m = 0.5, and the scale 64. -/
abbrev cCos : EReal := Ideal.ofBits .f32 0x3F60A940#32
abbrev cSin : EReal := Ideal.ofBits .f32 0x3EF57744#32
abbrev cTheta : EReal := Ideal.ofBits .f32 0xBF60A940#32
abbrev cSinMM : EReal := Ideal.ofBits .f32 0x3E757744#32
abbrev cScale : EReal := Ideal.ofBits .f32 0x42800000#32
abbrev cOne : EReal := Ideal.ofBits .f32 0x3F800000#32
abbrev cZero : EReal := Ideal.ofBits .f32 0x00000000#32

/-! ## The scalar transforms -/

/-- The kernel's margin transform of a target cosine, scaled: the square root is taken of `max (1 − t², 0)`. -/
def marginKer (t : EReal) : EReal :=
  Scalar.select (Ideal.cmp .ogt t cTheta) (t * cCos - Ideal.sqrt (max (cOne - t * t) cZero) * cSin) (t - cSinMM) * cScale

/-- The reference's margin transform, before its final scaling: the square root is taken of `1 − t²` itself. -/
def marginRef (t : EReal) : EReal :=
  Scalar.select (Ideal.cmp .ogt t cTheta) (t * cCos - Ideal.sqrt (cOne - t * t) * cSin) (t - cSinMM)

/-- The kernel's interclass filter with its scale: a cosine above the threshold is dropped. -/
def filterKer (a : EReal) : EReal := Scalar.select (Ideal.cmp .ogt a cThresh) cZero a * cScale

/-- The reference's interclass filter, before its final scaling: the cosine times one minus the 0/1 indicator. -/
def filterRef (a : EReal) : EReal :=
  (cOne - (((Ideal.cmp .ogt a cThresh).toNat : ℝ) : EReal)) * a

/-! ## The labels -/

/-- Row `r`'s label as a column of the logits: the label word read signed, clamped into the columns (a label inside
    the columns is itself). -/
def colOf (lab : IVec SL 32) (r : Fin 1024) : Fin 100000 :=
  ⟨min (lab (ix1 r)).toInt.toNat 99999, by omega⟩

/-- Every label is a column of the logits. -/
def LabelsOk (lab : IVec SL 32) : Prop :=
  ∀ r : Fin 1024, 0 ≤ (lab (ix1 r)).toInt ∧ (lab (ix1 r)).toInt < 100000

/-- Every row's target cosine is at most one: where the margin transform takes the square root, `1 − t²` is not
    negative. -/
def TargetsOk (x : SX.Idx → EReal) (lab : IVec SL 32) : Prop :=
  ∀ r : Fin 1024, x (ix2 r (colOf lab r)) ≤ 1

theorem colOf_val {lab : IVec SL 32} (h : LabelsOk lab) (r : Fin 1024) : ((colOf lab r).val : Int) = (lab (ix1 r)).toInt := by
  have := h r
  show ((min (lab (ix1 r)).toInt.toNat 99999 : Nat) : Int) = _
  omega

/-- Column `j` is row `r`'s label, as integers, exactly when it is the label's column. -/
theorem toInt_eq_iff_colOf {lab : IVec SL 32} (h : LabelsOk lab) (r : Fin 1024) (j : Fin 100000) :
    (lab (ix1 r)).toInt = (j.val : Int) ↔ j = colOf lab r := by
  rw [← colOf_val h r]
  constructor
  · intro e; exact Fin.ext (by exact_mod_cast e.symm)
  · intro e; rw [e]

/-- … and exactly when the column number, as a 32-bit word, is the label word. -/
theorem word_eq_iff_toInt {lab : IVec SL 32} (h : LabelsOk lab) (r : Fin 1024) (j : Fin 100000) :
    BitVec.ofNat 32 j.val = lab (ix1 r) ↔ (lab (ix1 r)).toInt = (j.val : Int) := by
  have hr := h r
  have hj := j.isLt
  constructor
  · intro e
    rw [← e, StableHlo.Predicate.toInt_ofNat_small _ (by omega)]
  · intro e
    apply BitVec.eq_of_toInt_eq
    rw [e, StableHlo.Predicate.toInt_ofNat_small _ (by omega)]

/-! ## The whole array -/

/-- THE RESULT as one function of the logits and the labels, index by index. -/
def G (x : SX.Idx → EReal) (lab : IVec SL 32) : SX.Idx → EReal := fun i =>
  if (lab (ix1 (i 0))).toInt = ((i 1).val : Int) then marginKer (x (ix2 (i 0) (colOf lab (i 0))))
  else filterKer (x i)

/-- What the kernel's body writes, as a function of the three arrays the region reads: the logits, the labels as a
    column of words and the scaled margin-transformed targets as a column. At the column whose number, as a word, is
    the row's label the target's value; elsewhere the filtered, scaled logit. -/
def KG (x : SX.Idx → EReal) (L : IVec SC 32) (T : SC.Idx → EReal) : SX.Idx → EReal := fun i =>
  Scalar.select (IntOp.cmpi .eq (BitVec.ofNat 32 (i 1).val) (L (ix2 (i 0) 0))) (T (ix2 (i 0) 0)) (filterKer (x i))

/-- What the reference computes, in its own arrangement of the same operations. -/
def GRef (x : SX.Idx → EReal) (lab : IVec SL 32) : SX.Idx → EReal := fun i =>
  (if (lab (ix1 (i 0))).toInt = ((i 1).val : Int) then marginRef (x (ix2 (i 0) (colOf lab (i 0))))
   else filterRef (x i)) * cScale

end Cert.Margin

end
-- ==== Proof.Scalar.lean ====
/-
  THE TWO ARRANGEMENTS AGREE: the reference's and the kernel's scalar forms, and with them the whole arrays.

  Margin transform. Both sides select by `t > cos(π − m)`. Where the test fails both are `t − m·sin(π − m)`. Where it
  holds, `−1 ≤ cos(π − m) < t ≤ 1`, so `t` is a real with `t² ≤ 1`, `1 − t² ≥ 0`, and `max (1 − t²) 0 = 1 − t²`: the two
  square roots have the same argument.
  Filter. `(1 − [a > 0.3]) · a` is `0 · a = 0` above the threshold and `1 · a = a` at or below it, on every extended real.
-/
import proofs.«428651_j30039001268428_3_alg».proof.Proof.Spec

noncomputable section

namespace Cert.Margin

open Idealize.ShloMosaic Idealize.ShloMosaic.ValueIdx

/-! ## The three literals whose values matter -/

theorem cOne_eq : cOne = 1 := by
  simp [Ideal.ofBits, Ideal.ieee, -EReal.coe_mul]; norm_num

theorem cZero_eq : cZero = 0 := by
  simp [Ideal.ofBits, Ideal.ieee]

/-- cos(π − m) as printed is −14723392 / 2²⁴ = −0.87758255…, not below −1. -/
theorem cTheta_eq : cTheta = ((-(14723392 : ℝ) / 16777216 : ℝ) : EReal) := by
  simp [Ideal.ofBits, Ideal.ieee, -EReal.coe_mul]; norm_num

theorem cTheta_ge : (-1 : EReal) ≤ cTheta := by
  rw [cTheta_eq]
  have e : (-1 : EReal) = ((-1 : ℝ) : EReal) := by simp
  rw [e, EReal.coe_le_coe_iff]
  norm_num

/-! ## The scalar forms -/

/-- Where the target cosine is at most one, the reference's margin transform, scaled, is the kernel's. -/
theorem marginRef_eq (t : EReal) (ht : t ≤ 1) : marginRef t * cScale = marginKer t := by
  unfold marginRef marginKer
  by_cases hc : Ideal.cmp .ogt t cTheta = 1#1
  · have hc' : BitVec.ofBool (decide (cTheta < t)) = 1#1 := hc
    have hlt : cTheta < t := of_decide_eq_true ((StableHlo.Predicate.ofBool_eq_one_iff _).mp hc')
    have h1 : (-1 : EReal) < t := lt_of_le_of_lt cTheta_ge hlt
    induction t using EReal.rec with
    | bot => exact absurd h1 (by simp)
    | top =>
      have h1t : (1 : EReal) ≠ ⊤ := by
        have := EReal.coe_ne_top (1 : ℝ)
        rwa [EReal.coe_one] at this
      exact absurd (top_le_iff.mp ht) h1t
    | coe r =>
      have hr1 : r ≤ 1 := by exact_mod_cast ht
      have hr2 : -1 < r := by
        have e : (-1 : EReal) = ((-1 : ℝ) : EReal) := by simp
        rw [e] at h1
        exact EReal.coe_lt_coe_iff.mp h1
      have hnn : (0 : ℝ) ≤ 1 - r * r := by nlinarith
      have hsub : cOne - (r : EReal) * r = ((1 - r * r : ℝ) : EReal) := by
        rw [cOne_eq]; push_cast; rfl
      have hmax : max (cOne - (r : EReal) * r) cZero = cOne - (r : EReal) * r := by
        rw [hsub, cZero_eq]
        exact max_eq_left (by exact_mod_cast hnn)
      rw [hmax]
  · have hz : Ideal.cmp .ogt t cTheta = 0#1 := eq_zero_of_ne_one hc
    rw [hz, select_zero, select_zero]

/-- The reference's filter, scaled, is the kernel's, on every extended real. -/
theorem filterRef_eq (a : EReal) : filterRef a * cScale = filterKer a := by
  unfold filterRef filterKer
  by_cases hc : Ideal.cmp .ogt a cThresh = 1#1
  · rw [hc, select_one, cOne_eq, cZero_eq]
    have : ((((1#1 : BitVec 1).toNat : ℝ)) : EReal) = 1 := by norm_num
    rw [this, sub_self_one, zero_mul]
  · have hz : Ideal.cmp .ogt a cThresh = 0#1 := eq_zero_of_ne_one hc
    rw [hz, select_zero, cOne_eq]
    have : ((((0#1 : BitVec 1).toNat : ℝ)) : EReal) = 0 := by norm_num
    rw [this, sub_zero, one_mul]
where
  sub_self_one : (1 : EReal) - 1 = 0 := by
    have : ((1 : ℝ) : EReal) - ((1 : ℝ) : EReal) = (((1 : ℝ) - 1 : ℝ) : EReal) := (EReal.coe_sub 1 1).symm
    simpa using this

/-! ## The whole arrays -/

/-- The reference's arrangement is the specification where the target cosines are at most one. -/
theorem GRef_eq_G (x : SX.Idx → EReal) (lab : IVec SL 32) (hT : TargetsOk x lab) : GRef x lab = G x lab := by
  funext i
  obtain ⟨r, j, rfl⟩ : ∃ (r : Fin 1024) (j : Fin 100000), i = ix2 r j := ⟨i 0, i 1, eq_ix2 i⟩
  show (if (lab (ix1 r)).toInt = (j.val : Int) then marginRef (x (ix2 r (colOf lab r))) else filterRef (x (ix2 r j))) * cScale
    = if (lab (ix1 r)).toInt = (j.val : Int) then marginKer (x (ix2 r (colOf lab r))) else filterKer (x (ix2 r j))
  by_cases h : (lab (ix1 r)).toInt = (j.val : Int)
  · rw [if_pos h, if_pos h]
    exact marginRef_eq _ (hT r)
  · rw [if_neg h, if_neg h]
    exact filterRef_eq _

/-- The kernel's body function over a label column holding the labels and a target column holding the transformed
    target cosines is the specification: the column iota meets the label word exactly at the label's column. -/
theorem KG_eq_G (x : SX.Idx → EReal) (lab : IVec SL 32) (L : IVec SC 32) (T : SC.Idx → EReal) (hL : LabelsOk lab)
    (hLL : ∀ r : Fin 1024, L (ix2 r 0) = lab (ix1 r))
    (hTT : ∀ r : Fin 1024, T (ix2 r 0) = marginKer (x (ix2 r (colOf lab r)))) : KG x L T = G x lab := by
  funext i
  obtain ⟨r, j, rfl⟩ : ∃ (r : Fin 1024) (j : Fin 100000), i = ix2 r j := ⟨i 0, i 1, eq_ix2 i⟩
  show Scalar.select (IntOp.cmpi .eq (BitVec.ofNat 32 j.val) (L (ix2 r 0))) (T (ix2 r 0)) (filterKer (x (ix2 r j)))
    = if (lab (ix1 r)).toInt = (j.val : Int) then marginKer (x (ix2 r (colOf lab r))) else filterKer (x (ix2 r j))
  rw [hLL, hTT]
  by_cases h : (lab (ix1 r)).toInt = (j.val : Int)
  · have hw : BitVec.ofNat 32 j.val = lab (ix1 r) := (word_eq_iff_toInt hL r j).mpr h
    rw [if_pos h, StableHlo.Predicate.cmpi_eq_iff.mpr hw, select_one]
  · have hw : ¬ IntOp.cmpi .eq (BitVec.ofNat 32 j.val) (lab (ix1 r)) = 1#1 := fun e =>
      h ((word_eq_iff_toInt hL r j).mp (StableHlo.Predicate.cmpi_eq_iff.mp e))
    rw [if_neg h, eq_zero_of_ne_one hw, select_zero]

end Cert.Margin

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«428651_j30039001268428_3_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.LibPairIndex.lean ====
/-
  A MATRIX READ AND WRITTEN AT ONE INDEX PAIR PER ROW, read at an index.

  `x[r, c]` of a matrix `x : [N, N']` at integer arrays `r, c : [M]` is a `stablehlo.gather` whose start indices are
  the pairs `[M, 2]` (offset_dims `[]`, collapsed_slice_dims `[0, 1]`, start_index_map `[0, 1]`, index_vector_dim 1,
  slice_sizes `[1, 1]`), and `x.at[r, c].set(v)` is a `stablehlo.scatter` over the same pairs whose body returns the
  update. The pairs themselves are a `concatenate` along axis 1 of the two index vectors, each broadcast to a column.

  * `pairGather_apply`: the gather's element `j` is the operand at the pair `(idx[j, 0], idx[j, 1])`, each component
    read SIGNED and CLAMPED into the operand; `pairGather_apply_inRange` is the same when the pair is an operand index.
  * `pairSet_apply`: when pair `j`'s row component is `j` itself (`r = arange`), every update lands in its own row, so
    the result at `(r, c)` is update `r` when pair `r`'s column component is `c`, and the operand's element otherwise.
  * `pairs_col0` / `pairs_col1` / `column_apply`: the pairs array read at `(j, 0)` and `(j, 1)`.
  * `wrap_of_nonneg`: jnp's normalisation of a negative index (`select (i < 0) (i + n) i`) leaves a non-negative one.
-/
import Idealize.ShloMosaic.PureOps.Ideal
import Idealize.ShloMosaic.Lib.ValueIdx
import Idealize.ShloMosaic.Lib.Pipeline.Value
import proofs.«428651_j30039001268428_3_alg».proof.Proof.LibGatherScatter
import proofs.«428651_j30039001268428_3_alg».proof.Proof.LibScatterSet

noncomputable section

namespace Idealize.ShloMosaic.PairIndex

open Idealize.ShloMosaic Idealize.ShloMosaic.ValueIdx Idealize.ShloMosaic.GatherScatter Idealize.ShloMosaic.ScatterSet

/-! ## The gather at index pairs -/

section PairGather
variable {α : Type}

/-- The dimension numbers of `x[r, c]` for an operand `[N, N']`, start indices `[M, 2]` and result `[M]`; their
    conditions `wf` are decided on a program's literal shapes. -/
abbrev pairGatherDims (N N' M : Nat)
    (wf : GatherDims.WF ⟨2, ![N, N']⟩ ⟨2, ![M, 2]⟩ ⟨1, ![M]⟩ [] [0, 1] [] [0, 1] [] 1 ![1, 1]) :
    GatherDims ⟨2, ![N, N']⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N N' M w : Nat} (wf : GatherDims.WF ⟨2, ![N, N']⟩ ⟨2, ![M, 2]⟩ ⟨1, ![M]⟩ [] [0, 1] [] [0, 1] [] 1 ![1, 1])

/-- Result element `j`'s slice starts, on the operand's row axis, at `idx[j, 0]` read signed and clamped into
    `[0, N − 1]`. -/
theorem pairGather_start0 (idx : IVec ⟨2, ![M, 2]⟩ w) (j : Fin M) :
    (pairGatherDims N N' M wf).start (ix1 j) idx 0 = min (idx (ix2 j 0)).toInt.toNat (N - 1) := by
  have hmem : (0 : Fin 2) ∈ (pairGatherDims N N' M wf).startIndexMap :=
    (by decide : (0 : Fin 2) ∈ ([0, 1] : List (Fin 2)))
  have hsi : (pairGatherDims N N' M wf).siIdx (ix1 j) ⟨List.idxOf (0 : Fin 2) (pairGatherDims N N' M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- … and on the column axis at `idx[j, 1]` read signed and clamped into `[0, N' − 1]`. -/
theorem pairGather_start1 (idx : IVec ⟨2, ![M, 2]⟩ w) (j : Fin M) :
    (pairGatherDims N N' M wf).start (ix1 j) idx 1 = min (idx (ix2 j 1)).toInt.toNat (N' - 1) := by
  have hmem : (1 : Fin 2) ∈ (pairGatherDims N N' M wf).startIndexMap :=
    (by decide : (1 : Fin 2) ∈ ([0, 1] : List (Fin 2)))
  have hsi : (pairGatherDims N N' M wf).siIdx (ix1 j) ⟨List.idxOf (1 : Fin 2) (pairGatherDims N N' M wf).startIndexMap,
      List.idxOf_lt_length_iff.2 hmem⟩ = ix2 j 1 := by
    funext b; refine Fin.ext ?_
    match b with
    | ⟨0, _⟩ => rfl
    | ⟨1, _⟩ => rfl
  unfold GatherDims.start
  rw [dif_pos hmem, hsi]
  rfl

/-- THE GATHER READ AT `j`: the operand at the pair `(idx[j, 0], idx[j, 1])`, each component read signed and
    clamped into the operand. -/
theorem pairGather_apply (hN : 0 < N) (hN' : 0 < N')
    (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) :
    Host.gather (pairGatherDims N N' M wf) x idx (ix1 j)
      = x (ix2 ⟨min (idx (ix2 j 0)).toInt.toNat (N - 1), by omega⟩
               ⟨min (idx (ix2 j 1)).toInt.toNat (N' - 1), by omega⟩) := by
  unfold Host.gather
  congr 1
  funext a
  refine Fin.ext ?_
  rw [operandIdx_val, batchCoord_of_nil _ rfl, Nat.add_zero]
  match a with
  | ⟨0, _⟩ =>
    show (pairGatherDims N N' M wf).start (ix1 j) idx 0 + (pairGatherDims N N' M wf).offCoord (ix1 j) 0 = _
    rw [pairGather_start0, offCoord_of_collapsed _ _ (by decide : (0 : Fin 2) ∈ ([0, 1] : List (Fin 2)))]
    rfl
  | ⟨1, _⟩ =>
    show (pairGatherDims N N' M wf).start (ix1 j) idx 1 + (pairGatherDims N N' M wf).offCoord (ix1 j) 1 = _
    rw [pairGather_start1, offCoord_of_collapsed _ _ (by decide : (1 : Fin 2) ∈ ([0, 1] : List (Fin 2)))]
    rfl

/-- The gather at `j` when its pair is the operand index `(r, c)`: the operand there. -/
theorem pairGather_apply_inRange (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) (r : Fin N) (c : Fin N')
    (h0 : (idx (ix2 j 0)).toInt = (r.val : Int)) (h1 : (idx (ix2 j 1)).toInt = (c.val : Int)) :
    Host.gather (pairGatherDims N N' M wf) x idx (ix1 j) = x (ix2 r c) := by
  have hr := r.isLt
  have hc := c.isLt
  rw [pairGather_apply (by omega) (by omega) wf x idx j]
  congr 1
  funext a
  refine Fin.ext ?_
  match a with
  | ⟨0, _⟩ =>
    show min (idx (ix2 j 0)).toInt.toNat (N - 1) = r.val
    rw [h0, Int.toNat_natCast]; omega
  | ⟨1, _⟩ =>
    show min (idx (ix2 j 1)).toInt.toNat (N' - 1) = c.val
    rw [h1, Int.toNat_natCast]; omega

end PairGather

/-! ## Scalars set into a matrix, one per row -/

section PairSet
variable {α : Type} {N N' w : Nat}

/-- SET AT ONE PAIR PER ROW, read at `(r, c)`: with pair `j`'s row component `j` itself, update `r` when pair `r`'s column
    component, read signed, is `c`; the operand's element otherwise (a column component outside the operand lands
    nowhere). -/
theorem pairSet_apply (wf : ScatterDims.WF ⟨2, ![N, N']⟩ ⟨2, ![N, 2]⟩ ⟨1, ![N]⟩ [] [0, 1] [0, 1] 1)
    (x : (⟨2, ![N, N']⟩ : Shape).Idx → α) (idx : IVec ⟨2, ![N, 2]⟩ w) (upd : (⟨1, ![N]⟩ : Shape).Idx → α)
    (hrow : ∀ j : Fin N, (idx (ix2 j 0)).toInt = (j.val : Int)) (r : Fin N) (c : Fin N') :
    Host.scatter (pairScatterDims N N' N wf) (fun _ b => b) x idx upd (ix2 r c)
      = if (idx (ix2 r 1)).toInt = (c.val : Int) then upd (ix1 r) else x (ix2 r c) := by
  by_cases h : (idx (ix2 r 1)).toInt = (c.val : Int)
  · rw [if_pos h]
    refine scatter_set_hit _ x idx upd _ (ix1 r) ((pairScatter_resultIdx wf idx r r c).mpr ⟨hrow r, h⟩) ?_
    intro j' hj'
    obtain ⟨j, rfl⟩ : ∃ j : Fin N, j' = ix1 j := ⟨j' 0, eq_ix1 j'⟩
    have h0 := ((pairScatter_resultIdx wf idx j r c).mp hj').1
    rw [hrow j] at h0
    have e : j = r := Fin.ext (by exact_mod_cast h0)
    rw [e]
  · rw [if_neg h]
    refine scatter_set_miss _ x idx upd _ fun j' hj' => h ?_
    obtain ⟨j, rfl⟩ : ∃ j : Fin N, j' = ix1 j := ⟨j' 0, eq_ix1 j'⟩
    obtain ⟨h0, h1⟩ := (pairScatter_resultIdx wf idx j r c).mp hj'
    rw [hrow j] at h0
    have e : j = r := Fin.ext (by exact_mod_cast h0)
    rw [← e]; exact h1

end PairSet

/-! ## The pairs array -/

section Pairs
variable {α : Type} {M : Nat}

/-- A vector broadcast to a column reads, at `(j, 0)`, the vector at `j`. -/
theorem column_apply (h : (⟨1, ![M]⟩ : Shape).BroadcastsInDim ⟨2, ![M, 1]⟩ ![0]) (v : (⟨1, ![M]⟩ : Shape).Idx → α)
    (j : Fin M) : broadcastInDim ⟨2, ![M, 1]⟩ ![0] h v (ix2 j 0) = v (ix1 j) := by
  simp only [broadcastInDim]
  congr 1
  funext a
  obtain rfl : a = 0 := Subsingleton.elim _ _
  apply Fin.ext
  have hj := j.isLt
  split
  · next h1 => change M = 1 at h1; show (0 : Nat) = j.val; omega
  · rfl

/-- Two columns laid side by side read, at `(j, 0)`, the first column. -/
theorem pairs_col0 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 0) = a (ix2 j 0) :=
  concatenate_pair_apply_left (t := ⟨2, ![M, 2]⟩) (s₁ := ⟨2, ![M, 1]⟩) (s₂ := ⟨2, ![M, 1]⟩) (1 : Fin 2) a b h (ix2 j 0) rfl
      (ix2 j 0) fun d => by
    match d with
    | ⟨0, _⟩ => rfl
    | ⟨1, _⟩ => rfl

/-- … and, at `(j, 1)`, the second. -/
theorem pairs_col1 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 1) = b (ix2 j 0) :=
  concatenate_pair_apply_right (t := ⟨2, ![M, 2]⟩) (s₁ := ⟨2, ![M, 1]⟩) (s₂ := ⟨2, ![M, 1]⟩) (1 : Fin 2) a b h (ix2 j 1) rfl rfl
    (ix2 j 0) (fun d hd => by
      match d with
      | ⟨0, _⟩ => rfl
      | ⟨1, _⟩ => exact absurd rfl hd) (by rfl)

end Pairs

/-! ## A non-negative index is not wrapped -/

/-- `select (i < 0) (i + n) i` at a word that is non-negative read signed is that word. -/
theorem wrap_of_nonneg (i n : BitVec 32) (h : 0 ≤ i.toInt) :
    Scalar.select (IntOp.cmpi .slt i 0#32) (IntOp.addi i n) i = i := by
  have : IntOp.cmpi .slt i 0#32 = 0#1 := by
    simp only [IntOp.cmpi]
    have : ¬ i.slt 0#32 := by
      simp only [BitVec.slt, BitVec.toInt_zero, decide_eq_true_eq, not_lt]; exact h
    simp [this]
  rw [this]
  exact select_zero _ _

end Idealize.ShloMosaic.PairIndex

end
-- ==== Proof.PreDecode.lean ====
/-
  THE PRECONDITION, decoded: from "the printed predicate is all ones" to the two facts about the inputs that the value
  proof uses — every label is a column of the logits, and every row's target cosine is at most one.
-/
import proofs.«428651_j30039001268428_3_alg».proof.Pre_finite_inputs
import proofs.«428651_j30039001268428_3_alg».proof.Proof.Gen.Pre_finite_inputs
import proofs.«428651_j30039001268428_3_alg».proof.Proof.Spec
import proofs.«428651_j30039001268428_3_alg».proof.Proof.LibPairIndex
import Idealize.ShloMosaic.Lib.ReduceAll
import Idealize.ShloMosaic.Lib.StableHlo.Predicate

noncomputable section

namespace Cert.Margin

open Idealize.ShloMosaic Idealize.ShloMosaic.ValueIdx

open Cert.Pre_finite_inputs in
/-- The scalar shape has one index. -/
theorem scalarIdx_subsingleton : Subsingleton S_.Idx := ⟨fun a b => funext fun d => d.elim0⟩

/-- The word of 1.0 denotes the extended real one. -/
theorem one_lit : Ideal.ofBits .f32 0x3F800000#32 = (1 : EReal) := by
  simp [Ideal.ofBits, Ideal.ieee, -EReal.coe_mul]; norm_num

/-- A word on which both signed comparisons "at least 0" and "below 100000" give the bit one lies, read signed, in
    that range. -/
theorem range_of_bits (w : BitVec 32)
    (h : IntOp.andi (IntOp.cmpi .sge w 0#32) (IntOp.cmpi .slt w 100000#32) = 1#1) :
    0 ≤ w.toInt ∧ w.toInt < 100000 := by
  obtain ⟨ha, hb⟩ := IntOp.andi_eq_one.1 h
  simp only [IntOp.cmpi, StableHlo.Predicate.ofBool_eq_one_iff, BitVec.sle, BitVec.slt, decide_eq_true_eq] at ha hb
  have e0 : (0#32 : BitVec 32).toInt = 0 := by decide
  have e1 : (100000#32 : BitVec 32).toInt = 100000 := by decide
  rw [e0] at ha; rw [e1] at hb
  exact ⟨ha, hb⟩

/-- On extended reals the ordered comparison "at most" gives the bit one only where the order holds. -/
theorem le_of_cmp_ole (a b : EReal) (h : Ideal.cmp .ole a b = 1#1) : a ≤ b := by
  simpa [Ideal.cmp, StableHlo.Predicate.ofBool_eq_one_iff] using h

section Reads
open Cert.Pre_finite_inputs

/-- The index normalisation `select (v < 0) (v + n) v` of a vector of words, read at a position whose word is
    non-negative read signed, is that word. -/
theorem wrap_read (v : IVec S1024 32) (n : BitVec 32) (r : Fin 1024) (hv : 0 ≤ (v (ix1 r)).toInt) :
    select (cmpi .slt v (broadcastInDim S1024 ![] Facts.bcast_S_S1024 (constantI S_ 32 0#32)))
      (addi v (broadcastInDim S1024 ![] Facts.bcast_S_S1024 (constantI S_ 32 n))) v (ix1 r) = v (ix1 r) :=
  PairIndex.wrap_of_nonneg (v (ix1 r)) n hv

/-- THE TARGET READ. The gather over the pairs made of two normalised index vectors `a` and `b` reads, at row `r`,
    the matrix at `(r, c)` when `a` at `r` is `r` and `b` at `r` is `c`, both read signed. -/
theorem gather_wrapped (x : SX.Idx → EReal) (a b : IVec S1024 32) (m n : BitVec 32) (r : Fin 1024) (c : Fin 100000)
    (ha : (a (ix1 r)).toInt = (r.val : Int)) (hb : (b (ix1 r)).toInt = (c.val : Int)) :
    Host.gather gather_S1024x100000_S1024x2_S1024_n_01_n_n_01_1_11 x
      (concatenate S1024x2 1
        [⟨S1024x1, broadcastInDim S1024x1 ![0] Facts.bcast_S1024_S1024x1_0
            (select (cmpi .slt a (broadcastInDim S1024 ![] Facts.bcast_S_S1024 (constantI S_ 32 0#32)))
              (addi a (broadcastInDim S1024 ![] Facts.bcast_S_S1024 (constantI S_ 32 m))) a)⟩,
         ⟨S1024x1, broadcastInDim S1024x1 ![0] Facts.bcast_S1024_S1024x1_0
            (select (cmpi .slt b (broadcastInDim S1024 ![] Facts.bcast_S_S1024 (constantI S_ 32 0#32)))
              (addi b (broadcastInDim S1024 ![] Facts.bcast_S_S1024 (constantI S_ 32 n))) b)⟩]
        Facts.concatenates_S1024x1_S1024x1_S1024x2_d1) (ix1 r)
      = x (ix2 r c) := by
  have e : gather_S1024x100000_S1024x2_S1024_n_01_n_n_01_1_11
      = PairIndex.pairGatherDims 1024 100000 1024 Facts.gather_S1024x100000_S1024x2_S1024_n_01_n_n_01_1_11_wf := rfl
  rw [e]
  refine PairIndex.pairGather_apply_inRange _ x _ r r c ?_ ?_
  · rw [PairIndex.pairs_col0, PairIndex.column_apply, wrap_read a m r (by rw [ha]; omega)]
    exact ha
  · rw [PairIndex.pairs_col1, PairIndex.column_apply, wrap_read b n r (by rw [hb]; omega)]
    exact hb

end Reads

/-- Where the precondition holds, the labels are columns of the logits and the target cosines are at most one. -/
theorem pre_decode (x : SX.Idx → EReal) (lab : IVec SL 32)
    (h : Cert.Pre_finite_inputs.fn (F := Ideal) x lab = fun _ => 1#1) : LabelsOk lab ∧ TargetsOk x lab := by
  -- the predicate at its one index: a conjunction of three reductions by "and"
  have h0 := congrFun h ValueIdx.ix0
  unfold Cert.Pre_finite_inputs.fn Cert.Pre_finite_inputs.fn_part1 at h0
  dsimp only at h0
  obtain ⟨h12, h3⟩ := IntOp.andi_eq_one.1 h0
  obtain ⟨-, h2⟩ := IntOp.andi_eq_one.1 h12
  haveI := scalarIdx_subsingleton
  -- the second: every label word is in the columns' range
  have hlab : LabelsOk lab := fun r => range_of_bits _ (Host.reduce_andi_all _ _ _ _ _ h2 (ix1 r))
  refine ⟨hlab, fun r => ?_⟩
  -- the third, at row r: the gathered element is at most the word of 1.0
  have ht := Host.reduce_andi_all _ _ _ _ _ h3 (ix1 r)
  rw [cmpf_apply] at ht
  have ht' := le_of_cmp_ole _ _ ht
  -- the row component of pair r is r itself, the column component the label, which is the label's column
  have hi : (iotaInDim Cert.Pre_finite_inputs.S1024 32 0 (ix1 r)).toInt = (r.val : Int) :=
    StableHlo.Predicate.toInt_ofNat_small r.val (by have := r.isLt; omega)
  rw [gather_wrapped x (iotaInDim Cert.Pre_finite_inputs.S1024 32 0) lab _ _ r (colOf lab r) hi
    (colOf_val hlab r).symm] at ht'
  exact le_of_le_of_eq ht' one_lit

end Cert.Margin

end
-- ==== Proof.KernelValue.lean ====
/-
  THE KERNEL'S OUTPUT ARRAY, from blocks to the whole array.

  The grid has 64 points; point `t` stages rows `16 t … 16 t + 15` of the logits, of the label column and of the target
  column, and writes back the same rows of the output. So the array after the run is, index by index, the body's
  select over the three arrays as the region finds them: `Cert.Margin.KG`.
-/
import proofs.«428651_j30039001268428_3_alg».proof.Proof.Gen.KernelIdeal.Value
import proofs.«428651_j30039001268428_3_alg».proof.Proof.Spec

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.Margin
open Idealize.ShloMosaic.Pipeline (Dat)

variable (m : (ℓ : Loc nD τ sig) → Buf (Elt Ideal) ℓ)

/-! ## The body's payload at an index -/

/-- A column block broadcast along the long axis reads, at (p, q), the column's entry of row p. -/
theorem broadcastTo_col_apply {α : Type} (v : S16x1.Idx → α) (h : S16x1.Broadcasts S16x100000) (p : Fin 16) (q : Fin 100000) :
    broadcastTo S16x100000 v h (ix2 p q) = v (ix2 p 0) := by
  refine broadcastTo_apply v h (ix2 p q) (ix2 p 0) fun a => ?_
  match a with
  | ⟨0, _⟩ => rfl
  | ⟨1, _⟩ => rfl

/-- The payload read at (p, q): every operation reads one element per operand, the column counter reads q, and the
    two column blocks are read at row p. -/
theorem pay_apply (x0 : Vec Ideal S16x100000 .f32) (x1 : Vec Ideal S16x1 .i32) (x2 : Vec Ideal S16x1 .f32)
    (p : Fin 16) (q : Fin 100000) :
    (k0_pay1 x0 x1 x2 : S16x100000.Idx → EReal) (ix2 p q)
      = Scalar.select (IntOp.cmpi .eq (BitVec.ofNat 32 q.val) (x1 (ix2 p 0))) (x2 (ix2 p 0)) (filterKer (x0 (ix2 p q))) := by
  unfold k0_pay1
  simp only [shapeCast_self]
  rw [select_apply]
  show Scalar.select (IntOp.cmpi .eq (iota .tc S16x100000 32 [1] iota_S16x100000_d1_w32 (ix2 p q))
      (broadcastTo S16x100000 x1 broadcasts_S16x1_S16x100000 (ix2 p q)))
      (broadcastTo S16x100000 x2 broadcasts_S16x1_S16x100000 (ix2 p q)) _ = _
  rw [iota_single_apply, broadcastTo_col_apply, broadcastTo_col_apply]
  rfl

/-- So the payload of three blocks, at (p, q), is `KG` of three arrays at an array index i, as soon as the block
    entries read are the arrays' entries at i's row (and, for the logits, at i) and i's column is q. -/
theorem pay_eq_KG (x : SX.Idx → EReal) (L : IVec SC 32) (T : SC.Idx → EReal)
    (x0 : Vec Ideal S16x100000 .f32) (x1 : Vec Ideal S16x1 .i32) (x2 : Vec Ideal S16x1 .f32)
    (p : Fin 16) (q : Fin 100000) (i : SX.Idx) (hq : (i 1).val = q.val)
    (h0 : x0 (ix2 p q) = x i) (h1 : x1 (ix2 p 0) = L (ix2 (i 0) 0)) (h2 : x2 (ix2 p 0) = T (ix2 (i 0) 0)) :
    (k0_pay1 x0 x1 x2 : S16x100000.Idx → EReal) (ix2 p q) = KG x L T i := by
  rw [pay_apply, h0, h1, h2]
  unfold KG
  rw [hq]

/-! ## The index maps, over the grid -/

theorem zero_offsets : (![0, 0] : Fin 2 → Nat) = fun _ => 0 := funext fun a => by fin_cases a <;> rfl

/-- The four index maps, decided over the grid: every window's block row is the output's, every block column is 0,
    and the output's block row stays below 64. -/
theorem index_rows : ∀ t : Fin cfg0.N,
      win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 63 :=
  (by decide +kernel : ∀ t : Fin grid0.N, _)

/-- Every block row of the output is some point's. -/
theorem row_onto : ∀ b : Fin 64, ∃ t : Fin cfg0.N, win0_3.index t = ![b.val, 0] :=
  (by decide +kernel : ∀ b : Fin 64, ∃ t : Fin grid0.N, win0_3.index t = ![b.val, 0])

/-! ## What a point writes back -/

/-- A block written back equals a block of an array function as soon as it does entry by entry. -/
theorem cut_eq_read_of_apply (t : Fin cfg0.N) (P : Vec Ideal S16x100000 .f32) (G : S1024x100000.Idx → EReal)
    (h : ∀ (p : Fin 16) (q : Fin 100000), P (ix2 p q) = G (((cfg0.win 3).blk t).view.emb (ix2 p q))) :
    (cfg0.win 3).cut (grid0.coords t) P = ((cfg0.win 3).blk t).view.read (Elt Ideal) G := by
  funext j
  obtain ⟨p, q, rfl⟩ : ∃ (p : Fin 16) (q : Fin 100000), j = ix2 p q := ⟨j 0, j 1, eq_ix2 j⟩
  exact h p q

/-- WHAT POINT t WRITES BACK is block t of `KG` of the three arrays as the region finds them: the payload at (p, q)
    reads the logits' block at (p, q) and the two column blocks at row p, and each block entry is its array's entry
    where the output's rectangle puts (p, q), the four index maps being one. -/
theorem flushed_eq (c : Dev nD) (t : Fin cfg0.N) :
    (dats m 0 c).flushed 3 t
      = ((cfg0.win 3).blk t).view.read (Elt Ideal) (KG (V m c main_arg0) (V m c main_v35) (V m c main_v34)) := by
  rw [Value.flushed3]
  unfold out0_3
  rw [View.canon_unit_zero zero_offsets]
  simp only [View.ld_unit_zero (S := S16x100000) zero_offsets, View.ld_unit_zero (S := S16x1) zero_offsets]
  obtain ⟨e0, e1, e2, e3, e4, e5, e6, e7⟩ := index_rows t
  refine cut_eq_read_of_apply t _ _ fun p q => ?_
  refine pay_eq_KG _ _ _ (iblk m c 0 t) (iblk m c 1 t) (iblk m c 2 t) p q _ ?_ ?_ ?_ ?_
  · show win0_3.index t (1 : Fin 2) * 100000 + 1 * q.val = q.val
    omega
  · show V m c main_arg0 (((cfg0.win 0).blk t).view.emb (ix2 p q)) = V m c main_arg0 (((cfg0.win 3).blk t).view.emb (ix2 p q))
    refine congrArg _ (funext fun a => Fin.ext ?_)
    match a with
    | ⟨0, _⟩ => show win0_0.index t (0 : Fin 2) * 16 + 1 * p.val = win0_3.index t (0 : Fin 2) * 16 + 1 * p.val; omega
    | ⟨1, _⟩ => show win0_0.index t (1 : Fin 2) * 100000 + 1 * q.val = win0_3.index t (1 : Fin 2) * 100000 + 1 * q.val; omega
  · show V m c main_v35 (((cfg0.win 1).blk t).view.emb (ix2 p 0)) = V m c main_v35 (ix2 ((((cfg0.win 3).blk t).view.emb (ix2 p q)) 0) 0)
    refine congrArg _ (funext fun a => Fin.ext ?_)
    match a with
    | ⟨0, _⟩ => show win0_1.index t (0 : Fin 2) * 16 + 1 * p.val = win0_3.index t (0 : Fin 2) * 16 + 1 * p.val; omega
    | ⟨1, _⟩ => show win0_1.index t (1 : Fin 2) * 1 + 1 * 0 = 0; omega
  · show V m c main_v34 (((cfg0.win 2).blk t).view.emb (ix2 p 0)) = V m c main_v34 (ix2 ((((cfg0.win 3).blk t).view.emb (ix2 p q)) 0) 0)
    refine congrArg _ (funext fun a => Fin.ext ?_)
    match a with
    | ⟨0, _⟩ => show win0_2.index t (0 : Fin 2) * 16 + 1 * p.val = win0_3.index t (0 : Fin 2) * 16 + 1 * p.val; omega
    | ⟨1, _⟩ => show win0_2.index t (1 : Fin 2) * 1 + 1 * 0 = 0; omega

/-! ## The blocks tile the array -/

/-- An index of the array is in point t's block iff each coordinate is in the block's range on its axis. -/
theorem mem_block (t : Fin cfg0.N) (i : S1024x100000.Idx) :
    i ∈ ((cfg0.win 3).blk t).view.set ↔ ∀ a : Fin 2, win0_3.index t a * S16x100000.size a ≤ (i a).val ∧ (i a).val < win0_3.index t a * S16x100000.size a + S16x100000.size a := by
  show i ∈ ((View.whole main_v36).slice (win0_3.rect t)).set ↔ _
  rw [View.set_slice_whole, Rect.mem_set_unit]
  exact Iff.rfl

/-- The 64 blocks of 16 rows tile the 1024 rows: row r lies in the block of the point whose block row is r / 16. -/
theorem rows_covered (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  obtain ⟨t, ht⟩ := row_onto ⟨(i 0).val / 16, by omega⟩
  have q0 : win0_3.index t (0 : Fin 2) = (i 0).val / 16 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 100000 ≤ (i 1).val ∧ (i 1).val < win0_3.index t (1 : Fin 2) * 100000 + 100000; omega

/-! ## The array -/

/-- THE ARRAY after the run is the body's function of the three arrays the region reads. -/
theorem final3 (c : Dev nD) :
    (dats m 0 c).arrAt 3 cfg0.N = KG (V m c main_arg0) (V m c main_v35) (V m c main_v34) :=
  (dats m 0 c).arrAt_eq_of_cover 3 (KG (V m c main_arg0) (V m c main_v35) (V m c main_v34))
    (fun t _ => flushed_eq m c t) rows_covered

end Cert.KernelIdeal.KerValue

end
-- ==== Proof.KernelHost.lean ====
/-
  THE HOST PREFIX of the kernel's program: what the region finds in the label column and in the target column.

  Before the region the host clips the labels into the columns (`clipVec`), gathers each row's target cosine at the
  pair (row, clipped label) (`pairsArr`, with jnp's negative-index normalisation `wrapVec`, the identity on these
  non-negative words), applies the margin transform and the scale (`tgtVec`), and reshapes both vectors to columns.
  For labels that are columns already the clip changes nothing, so the label column holds the labels and the target
  column the transformed target cosines.
-/
import proofs.«428651_j30039001268428_3_alg».proof.Proof.Gen.KernelIdeal.Frame
import proofs.«428651_j30039001268428_3_alg».proof.Proof.Spec
import proofs.«428651_j30039001268428_3_alg».proof.Proof.LibPairIndex
import Idealize.ShloMosaic.Lib.StableHlo.Run
import Idealize.ShloMosaic.Lib.Pipeline.Value

set_option maxRecDepth 16384

noncomputable section

namespace Cert.KernelIdeal.KerHost

open Cert.KernelIdeal Cert.KernelIdeal.Gen Idealize.ShloMosaic Idealize.ShloMosaic.TcCoe Idealize.SL.Sem
open Idealize.ShloMosaic.ValueIdx Idealize.ShloMosaic.PairIndex Idealize.ShloMosaic.StableHlo Cert.Margin

/-! ## The host's vectors, as terms of the arguments -/

/-- The labels clipped into the columns: `min 99999 (max 0 ℓ)`, signed. -/
def clipVec (lab : IVec S1024 32) : IVec S1024 32 :=
  minsi (broadcastInDim S1024 ![] bcast_S_S1024 (constantI S_ 32 99999#32))
    (maxsi (broadcastInDim S1024 ![] bcast_S_S1024 (constantI S_ 32 0#32)) lab)

/-- jnp's normalisation of a vector of indices against an extent `n`: a negative index counts from the end. -/
def wrapVec (n : BitVec 32) (v : IVec S1024 32) : IVec S1024 32 :=
  select (cmpi .slt v (broadcastInDim S1024 ![] bcast_S_S1024 (constantI S_ 32 0#32)))
    (addi v (broadcastInDim S1024 ![] bcast_S_S1024 (constantI S_ 32 n))) v

/-- The index pairs (row, label): two columns side by side. -/
def pairsArr (L : IVec S1024 32) : IVec S1024x2 32 :=
  concatenate S1024x2 1
    [⟨S1024x1, broadcastInDim S1024x1 ![0] bcast_S1024_S1024x1_0 (wrapVec 1024#32 (iotaInDim S1024 32 0))⟩,
     ⟨S1024x1, broadcastInDim S1024x1 ![0] bcast_S1024_S1024x1_0 (wrapVec 100000#32 L)⟩]
    concatenates_S1024x1_S1024x1_S1024x2_d1

/-- A float literal broadcast to a vector. -/
def bc (w : BitVec 32) : FVec Ideal S1024 .f32 :=
  broadcastInDim S1024 ![] bcast_S_S1024 (constant (F := Ideal) S_ .f32 w)

/-- The target cosines gathered at the pairs. -/
def gatherVec (x : FVec Ideal S1024x100000 .f32) (L : IVec S1024 32) : FVec Ideal S1024 .f32 :=
  Host.gather gather_S1024x100000_S1024x2_S1024_n_01_n_n_01_1_11 x (pairsArr L)

/-- The host's margin transform and scale of a vector of target cosines. -/
def marginVec (g : FVec Ideal S1024 .f32) : FVec Ideal S1024 .f32 :=
  mulf (select (cmpf .ogt g (bc 0xBF60A940#32))
      (subf (mulf g (bc 0x3F60A940#32))
        (mulf (Host.sqrt (maximumf (subf (bc 0x3F800000#32) (mulf g g)) (bc 0x00000000#32))) (bc 0x3EF57744#32)))
      (subf g (bc 0x3E757744#32)))
    (bc 0x42800000#32)

variable (m : (ℓ : Loc nD τ sig) → Buf (Elt Ideal) ℓ)

/-! ## What the region finds -/

/-- The label column is the clipped labels, reshaped. -/
theorem V_labels (c : Dev nD) :
    (V m c main_v35 : S1024x1.Idx → BitVec 32)
      = shapeCast S1024x1 (clipVec (m ((c : Thread nD τ).loc main_arg1))) shapeCasts_S1024_S1024x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 8000000 in
/-- The target column is the transformed, scaled target cosines gathered at the clipped labels, reshaped. -/
theorem V_targets (c : Dev nD) :
    (V m c main_v34 : S1024x1.Idx → EReal)
      = shapeCast S1024x1 (marginVec (gatherVec (m ((c : Thread nD τ).loc main_arg0)) (clipVec (m ((c : Thread nD τ).loc main_arg1)))))
          shapeCasts_S1024_S1024x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-! ## The vectors read at a row -/

/-- A vector reshaped to a column reads, at `(r, 0)`, the vector at `r`. -/
theorem column_of_vector {α : Type} (v : S1024.Idx → α) (r : Fin 1024) :
    shapeCast S1024x1 v shapeCasts_S1024_S1024x1 (ix2 r 0) = v (ix1 r) := by
  refine shapeCast_apply v shapeCasts_S1024_S1024x1 (ix2 r 0) (ix1 r) ?_
  rw [Shape.rowMajor_val_one, Shape.rowMajor_val_two]
  show r.val = r.val * 1 + 0
  omega

/-- A label that is a column is its own clip. -/
theorem clipVec_apply {lab : IVec S1024 32} (h : LabelsOk lab) (r : Fin 1024) : clipVec lab (ix1 r) = lab (ix1 r) := by
  obtain ⟨h0, h1⟩ := h r
  show IntOp.minsi (99999#32) (IntOp.maxsi (0#32) (lab (ix1 r))) = lab (ix1 r)
  have hmax : IntOp.maxsi (0#32) (lab (ix1 r)) = lab (ix1 r) := by
    unfold IntOp.maxsi
    rw [if_neg]
    simp only [BitVec.slt, BitVec.toInt_zero, decide_eq_true_eq, not_lt]
    exact h0
  rw [hmax]
  unfold IntOp.minsi
  rw [if_neg]
  simp only [BitVec.slt, decide_eq_true_eq, not_lt]
  have : (99999#32 : BitVec 32).toInt = 99999 := by decide
  omega

/-- The pairs array's row component at row `r` is `r`. -/
theorem pairs_row (L : IVec S1024 32) (r : Fin 1024) : (pairsArr L (ix2 r 0)).toInt = (r.val : Int) := by
  have hr := r.isLt
  have hiota : (BitVec.ofNat 32 r.val).toInt = (r.val : Int) := StableHlo.Predicate.toInt_ofNat_small _ (by omega)
  unfold pairsArr
  rw [pairs_col0, column_apply]
  show (Scalar.select (IntOp.cmpi .slt (BitVec.ofNat 32 r.val) 0#32) (IntOp.addi (BitVec.ofNat 32 r.val) 1024#32)
      (BitVec.ofNat 32 r.val)).toInt = _
  rw [wrap_of_nonneg _ _ (by omega), hiota]

/-- Its column component at row `r` is the index vector's entry, when that is not negative. -/
theorem pairs_col (L : IVec S1024 32) (r : Fin 1024) (h : 0 ≤ (L (ix1 r)).toInt) :
    pairsArr L (ix2 r 1) = L (ix1 r) := by
  unfold pairsArr
  rw [pairs_col1, column_apply]
  show Scalar.select (IntOp.cmpi .slt (L (ix1 r)) 0#32) (IntOp.addi (L (ix1 r)) 100000#32) (L (ix1 r)) = _
  exact wrap_of_nonneg _ _ h

/-- The program's gather record is the pair gather's. -/
theorem gather_rec : gather_S1024x100000_S1024x2_S1024_n_01_n_n_01_1_11
    = pairGatherDims 1024 100000 1024 Facts₀.gather_S1024x100000_S1024x2_S1024_n_01_n_n_01_1_11_wf := rfl

/-- The gathered target cosine of row `r` is the logit at the label's column. -/
theorem gatherVec_apply (x : FVec Ideal S1024x100000 .f32) {lab : IVec S1024 32} (h : LabelsOk lab) (r : Fin 1024) :
    gatherVec x (clipVec lab) (ix1 r) = x (ix2 r (colOf lab r)) := by
  unfold gatherVec
  rw [gather_rec]
  refine pairGather_apply_inRange _ x _ r r (colOf lab r) (pairs_row _ r) ?_
  rw [pairs_col _ r (by rw [clipVec_apply h r]; exact (h r).1), clipVec_apply h r, colOf_val h r]

/-- The host's transform at a row is the scalar transform of the entry. -/
theorem marginVec_apply (g : FVec Ideal S1024 .f32) (r : Fin 1024) : marginVec g (ix1 r) = marginKer (g (ix1 r)) := rfl

/-! ## The two columns -/

/-- The label column the region reads holds, in row `r`, row `r`'s label. -/
theorem host_labels (c : Dev nD) (h : LabelsOk (m ((c : Thread nD τ).loc main_arg1))) (r : Fin 1024) :
    V m c main_v35 (ix2 r 0) = m ((c : Thread nD τ).loc main_arg1) (ix1 r) := by
  have e := congrFun (V_labels m c) (ix2 r 0)
  rw [column_of_vector, clipVec_apply h r] at e
  exact e

/-- The target column the region reads holds, in row `r`, the scaled margin transform of row `r`'s target cosine. -/
theorem host_target (c : Dev nD) (h : LabelsOk (m ((c : Thread nD τ).loc main_arg1))) (r : Fin 1024) :
    V m c main_v34 (ix2 r 0)
      = marginKer (m ((c : Thread nD τ).loc main_arg0) (ix2 r (colOf (m ((c : Thread nD τ).loc main_arg1)) r))) := by
  have e := congrFun (V_targets m c) (ix2 r 0)
  rw [column_of_vector, marginVec_apply, gatherVec_apply _ h r] at e
  exact e

end Cert.KernelIdeal.KerHost

end
-- ==== Proof.RefValue.lean ====
/-
  THE REFERENCE'S RESULT, index by index.

  The reference zeroes its 0/1 indicator `[x > 0.3]` at each row's label (a set at one index pair per row), multiplies
  the logits by one minus it, gathers each row's target cosine at its label from the product, applies the margin
  transform, sets it back at the same pairs and scales. For labels that are columns of the logits every pair lands in its
  own row at the label's column, so the result is `Cert.Margin.GRef`.
-/
import proofs.«428651_j30039001268428_3_alg».proof.Proof.Gen.ReferenceIdeal.Read
import proofs.«428651_j30039001268428_3_alg».proof.Proof.Spec
import proofs.«428651_j30039001268428_3_alg».proof.Proof.LibPairIndex
import Idealize.ShloMosaic.Lib.IdealHost

noncomputable section

namespace Cert.ReferenceIdeal.RefValue

open Cert.ReferenceIdeal Cert.ReferenceIdeal.Gen Idealize.ShloMosaic Idealize.ShloMosaic.ValueIdx Cert.Margin
open Idealize.ShloMosaic.PairIndex Idealize.ShloMosaic.GatherScatter

/-- The program's set-at-pairs record is the general one at these sizes. -/
theorem scatterRec_eq :
    scatter_S1024x100000_S1024x2_S1024_n_01_01_1
      = pairScatterDims 1024 100000 1024 Gen.scatter_S1024x100000_S1024x2_S1024_n_01_01_1_wf := rfl

/-- The program's read-at-pairs record is the general one at these sizes. -/
theorem gatherRec_eq :
    gather_S1024x100000_S1024x2_S1024_n_01_n_n_01_1_11
      = pairGatherDims 1024 100000 1024 Gen.gather_S1024x100000_S1024x2_S1024_n_01_n_n_01_1_11_wf := rfl

/-- A row number, as a 32-bit word read signed, is itself. -/
theorem rowWord_toInt (r : Fin 1024) : (BitVec.ofNat 32 r.val).toInt = (r.val : Int) :=
  StableHlo.Predicate.toInt_ofNat_small _ (by have := r.isLt; omega)

/-! ## The three pairs arrays

Each is two columns side by side: the row numbers and the labels, each passed through the normalisation of a negative
index, which leaves a non-negative word alone. -/

theorem col14 (r : Fin 1024) : Read.val_main_v14 (F := Ideal) (ix2 r 0) = BitVec.ofNat 32 r.val := by
  rw [Read.val_main_v14_apply, Read.val_main_v8_apply, Read.val_main_v5_apply, Read.val_main_v7_apply,
    Read.val_main_v4_apply, Read.val_main_c_apply, Read.val_main_v0_apply]
  exact wrap_of_nonneg (BitVec.ofNat 32 r.val) _ (by rw [rowWord_toInt]; omega)

theorem col15 (lab : IVec SL 32) (h : LabelsOk lab) (r : Fin 1024) :
    Read.val_main_v15 (F := Ideal) lab (ix2 r 0) = lab (ix1 r) := by
  have e : Read.idx_main_v15 (ix2 r (0 : Fin 1)) = ix1 r := funext fun a => by match a with | ⟨0, _⟩ => rfl
  rw [Read.val_main_v15_apply, Read.val_main_v13_apply, Read.val_main_v10_apply, Read.val_main_v12_apply,
    Read.val_main_v9_apply, Read.val_main_c_1_apply, e]
  exact wrap_of_nonneg (lab (ix1 r)) _ (h r).1

theorem col32 (r : Fin 1024) : Read.val_main_v32 (F := Ideal) (ix2 r 0) = BitVec.ofNat 32 r.val := by
  rw [Read.val_main_v32_apply, Read.val_main_v26_apply, Read.val_main_v23_apply, Read.val_main_v25_apply,
    Read.val_main_v22_apply, Read.val_main_c_5_apply, Read.val_main_v0_apply]
  exact wrap_of_nonneg (BitVec.ofNat 32 r.val) _ (by rw [rowWord_toInt]; omega)

theorem col33 (lab : IVec SL 32) (h : LabelsOk lab) (r : Fin 1024) :
    Read.val_main_v33 (F := Ideal) lab (ix2 r 0) = lab (ix1 r) := by
  have e : Read.idx_main_v33 (ix2 r (0 : Fin 1)) = ix1 r := funext fun a => by match a with | ⟨0, _⟩ => rfl
  rw [Read.val_main_v33_apply, Read.val_main_v31_apply, Read.val_main_v28_apply, Read.val_main_v30_apply,
    Read.val_main_v27_apply, Read.val_main_c_7_apply, e]
  exact wrap_of_nonneg (lab (ix1 r)) _ (h r).1

theorem col60 (r : Fin 1024) : Read.val_main_v60 (F := Ideal) (ix2 r 0) = BitVec.ofNat 32 r.val := by
  rw [Read.val_main_v60_apply, Read.val_main_v54_apply, Read.val_main_v51_apply, Read.val_main_v53_apply,
    Read.val_main_v50_apply, Read.val_main_c_14_apply, Read.val_main_v0_apply]
  exact wrap_of_nonneg (BitVec.ofNat 32 r.val) _ (by rw [rowWord_toInt]; omega)

theorem col61 (lab : IVec SL 32) (h : LabelsOk lab) (r : Fin 1024) :
    Read.val_main_v61 (F := Ideal) lab (ix2 r 0) = lab (ix1 r) := by
  have e : Read.idx_main_v61 (ix2 r (0 : Fin 1)) = ix1 r := funext fun a => by match a with | ⟨0, _⟩ => rfl
  rw [Read.val_main_v61_apply, Read.val_main_v59_apply, Read.val_main_v56_apply, Read.val_main_v58_apply,
    Read.val_main_v55_apply, Read.val_main_c_16_apply, e]
  exact wrap_of_nonneg (lab (ix1 r)) _ (h r).1

/-- Pair `r` of this pairs array is (row `r`, label of row `r`). -/
theorem pairs16_row (lab : IVec SL 32) (r : Fin 1024) :
    Read.val_main_v16 (F := Ideal) lab (ix2 r 0) = BitVec.ofNat 32 r.val := by
  unfold Read.val_main_v16
  exact (pairs_col0 concatenates_S1024x1_S1024x1_S1024x2_d1 _ _ r).trans (col14 r)

theorem pairs16_col (lab : IVec SL 32) (h : LabelsOk lab) (r : Fin 1024) :
    Read.val_main_v16 (F := Ideal) lab (ix2 r 1) = lab (ix1 r) := by
  unfold Read.val_main_v16
  exact (pairs_col1 concatenates_S1024x1_S1024x1_S1024x2_d1 _ _ r).trans (col15 lab h r)

theorem pairs16_row_toInt (lab : IVec SL 32) (r : Fin 1024) :
    (Read.val_main_v16 (F := Ideal) lab (ix2 r 0)).toInt = (r.val : Int) := by
  rw [pairs16_row, rowWord_toInt]

/-- Pair `r` of this pairs array is (row `r`, label of row `r`). -/
theorem pairs34_row (lab : IVec SL 32) (r : Fin 1024) :
    Read.val_main_v34 (F := Ideal) lab (ix2 r 0) = BitVec.ofNat 32 r.val := by
  unfold Read.val_main_v34
  exact (pairs_col0 concatenates_S1024x1_S1024x1_S1024x2_d1 _ _ r).trans (col32 r)

theorem pairs34_col (lab : IVec SL 32) (h : LabelsOk lab) (r : Fin 1024) :
    Read.val_main_v34 (F := Ideal) lab (ix2 r 1) = lab (ix1 r) := by
  unfold Read.val_main_v34
  exact (pairs_col1 concatenates_S1024x1_S1024x1_S1024x2_d1 _ _ r).trans (col33 lab h r)

theorem pairs34_row_toInt (lab : IVec SL 32) (r : Fin 1024) :
    (Read.val_main_v34 (F := Ideal) lab (ix2 r 0)).toInt = (r.val : Int) := by
  rw [pairs34_row, rowWord_toInt]

/-- Pair `r` of this pairs array is (row `r`, label of row `r`). -/
theorem pairs62_row (lab : IVec SL 32) (r : Fin 1024) :
    Read.val_main_v62 (F := Ideal) lab (ix2 r 0) = BitVec.ofNat 32 r.val := by
  unfold Read.val_main_v62
  exact (pairs_col0 concatenates_S1024x1_S1024x1_S1024x2_d1 _ _ r).trans (col60 r)

theorem pairs62_col (lab : IVec SL 32) (h : LabelsOk lab) (r : Fin 1024) :
    Read.val_main_v62 (F := Ideal) lab (ix2 r 1) = lab (ix1 r) := by
  unfold Read.val_main_v62
  exact (pairs_col1 concatenates_S1024x1_S1024x1_S1024x2_d1 _ _ r).trans (col61 lab h r)

theorem pairs62_row_toInt (lab : IVec SL 32) (r : Fin 1024) :
    (Read.val_main_v62 (F := Ideal) lab (ix2 r 0)).toInt = (r.val : Int) := by
  rw [pairs62_row, rowWord_toInt]

/-! ## The indicator, and the indicator with each row's label entry set to zero -/

/-- The 0/1 indicator of a logit above the threshold, as a float, at an index. -/
theorem indicator_apply (x : SX.Idx → EReal) (i : SX.Idx) :
    Read.val_main_v3 (F := Ideal) x i = (((Ideal.cmp .ogt (x i) cThresh).toNat : ℝ) : EReal) := by
  rw [Read.val_main_v3_apply, Read.val_main_v2_apply, Read.val_main_v1_apply, Read.val_main_cst_apply]
  rfl

/-- Every pair lands in its own row at the label's column, so the first set zeroes the indicator exactly at
    `(r, label r)`. -/
theorem zeroed_apply (x : SX.Idx → EReal) (lab : IVec SL 32) (h : LabelsOk lab) (r : Fin 1024) (j : Fin 100000) :
    Read.val_main_v18 (F := Ideal) x lab (ix2 r j)
      = if (lab (ix1 r)).toInt = (j.val : Int) then cZero
        else (((Ideal.cmp .ogt (x (ix2 r j)) cThresh).toNat : ℝ) : EReal) := by
  unfold Read.val_main_v18
  rw [scatterRec_eq]
  refine (pairSet_apply _ _ _ _ (pairs16_row_toInt lab) r j).trans ?_
  rw [pairs16_col lab h r, indicator_apply, Read.val_main_v17_apply, Read.val_main_cst_3_apply]
  rfl

/-- The logits times one minus that: the logit itself at the label's column (`(1 − 0) · t = t` on every extended
    real), the filtered logit elsewhere. -/
theorem masked_apply (x : SX.Idx → EReal) (lab : IVec SL 32) (h : LabelsOk lab) (r : Fin 1024) (j : Fin 100000) :
    Read.val_main_v21 (F := Ideal) x lab (ix2 r j)
      = if (lab (ix1 r)).toInt = (j.val : Int) then x (ix2 r j) else filterRef (x (ix2 r j)) := by
  rw [Read.val_main_v21_apply, Read.val_main_v20_apply, Read.val_main_v19_apply, Read.val_main_cst_4_apply,
    zeroed_apply x lab h r j]
  split
  · show (cOne - cZero) * x (ix2 r j) = x (ix2 r j)
    rw [show cOne = 1 from Ideal.ofBits_one_f32, show cZero = 0 from Ideal.ofBits_zero_f32, sub_zero, one_mul]
  · rfl

/-! ## The target cosine and its margin transform -/

/-- Row `r`'s gathered element is the product at `(r, label r)`, which is the logit there. -/
theorem target_apply (x : SX.Idx → EReal) (lab : IVec SL 32) (h : LabelsOk lab) (r : Fin 1024) :
    Read.val_main_v35 (F := Ideal) x lab (ix1 r) = x (ix2 r (colOf lab r)) := by
  unfold Read.val_main_v35
  rw [gatherRec_eq]
  refine (pairGather_apply_inRange _ _ _ r r (colOf lab r) (pairs34_row_toInt lab r) ?_).trans ?_
  · rw [pairs34_col lab h r, colOf_val h r]
  · rw [masked_apply x lab h r (colOf lab r), if_pos (colOf_val h r).symm]

/-- The elementwise stages after the gather are the margin transform of the target cosine. -/
theorem margin_apply (x : SX.Idx → EReal) (lab : IVec SL 32) (h : LabelsOk lab) (r : Fin 1024) :
    Read.val_main_v49 (F := Ideal) x lab (ix1 r) = marginRef (x (ix2 r (colOf lab r))) := by
  simp only [Read.val_main_v49_apply, Read.val_main_v46_apply, Read.val_main_v44_apply, Read.val_main_v48_apply,
    Read.val_main_v41_apply, Read.val_main_v43_apply, Read.val_main_v39_apply, Read.val_main_v38_apply,
    Read.val_main_v36_apply, Read.val_main_v45_apply, Read.val_main_v47_apply, Read.val_main_v40_apply,
    Read.val_main_v42_apply, Read.val_main_v37_apply, Read.val_main_cst_12_apply, Read.val_main_cst_13_apply,
    Read.val_main_cst_10_apply, Read.val_main_cst_11_apply, Read.val_main_cst_9_apply, target_apply x lab h r]
  rfl

/-! ## The second set, and the scaling -/

/-- The second set puts row `r`'s transformed target at `(r, label r)` and leaves the product elsewhere. -/
theorem set_apply (x : SX.Idx → EReal) (lab : IVec SL 32) (h : LabelsOk lab) (r : Fin 1024) (j : Fin 100000) :
    Read.val_main_v63 (F := Ideal) x lab (ix2 r j)
      = if (lab (ix1 r)).toInt = (j.val : Int) then marginRef (x (ix2 r (colOf lab r)))
        else filterRef (x (ix2 r j)) := by
  unfold Read.val_main_v63
  rw [scatterRec_eq]
  refine (pairSet_apply _ _ _ _ (pairs62_row_toInt lab) r j).trans ?_
  rw [pairs62_col lab h r, margin_apply x lab h r, masked_apply x lab h r j]
  split <;> rfl

/-- The reference's last stage is `GRef` of the logits and the labels. -/
theorem ref_eq (x : SX.Idx → EReal) (lab : IVec SL 32) (h : LabelsOk lab) :
    Cert.ReferenceIdeal.Read.val_main_v65 (F := Ideal) x lab = GRef x lab := by
  funext i
  obtain ⟨r, j, rfl⟩ : ∃ (r : Fin 1024) (j : Fin 100000), i = ix2 r j := ⟨i 0, i 1, eq_ix2 i⟩
  rw [Read.val_main_v65_apply, Read.val_main_v64_apply, Read.val_main_cst_18_apply, set_apply x lab h r j]
  rfl

end Cert.ReferenceIdeal.RefValue

end
-- ==== Proof.lean ====
/-
  The certificate of the margin loss kernel against its jnp reference, over the extended reals.

  For logits `x : f32[1024, 100000]` (cosines) and labels `ℓ : i32[1024]` both programs return, row by row,
    at the label's column     64 · (if t > cos(π − m) then t·cos m − √(1 − t²)·sin m else t − m·sin(π − m)),  t = x[r, ℓ r],
    at every other column j   64 · (0 if x[r, j] > 0.3 else x[r, j])
  (`Cert.Margin.G`, Proof/Spec.lean). The kernel gathers and transforms the target cosines on the host, clipping the
  labels into the columns and taking the root of `max (1 − t², 0)`, and its body selects, per 16-row block, between the
  target's value and the filtered logit by comparing a column iota with the label. The reference zeroes the indicator
  `[x > 0.3]` at the label by a set at one index pair per row, multiplies, gathers the target from the product, and sets
  the transformed target back. The two agree where every label is a column of the logits (outside, the reference's
  negative-index wrap and dropped updates differ from the kernel's clip) and every target cosine is at most one (above
  one, with the cosine branch taken, the reference's root of a negative number has no real value): the precondition's
  two added conjuncts, decoded in Proof/PreDecode.lean.

  Proof/KernelValue.lean reads the kernel's output array off the generated frame run block by block, Proof/KernelHost.lean
  the two columns the host prefix prepares, Proof/RefValue.lean the reference's run stage by stage, and
  Proof/Scalar.lean joins the two arrangements. The frames are the generated ones; the idealization rewrote nothing.
-/
import proofs.«428651_j30039001268428_3_alg».proof.Defs
import proofs.«428651_j30039001268428_3_alg».proof.Proof.Gen.Kernel
import proofs.«428651_j30039001268428_3_alg».proof.Proof.Gen.Kernel.Skeleton
import proofs.«428651_j30039001268428_3_alg».proof.Proof.Gen.Kernel.Launch
import proofs.«428651_j30039001268428_3_alg».proof.Proof.Gen.Kernel.Points
import proofs.«428651_j30039001268428_3_alg».proof.Proof.Gen.Kernel.Frame
import proofs.«428651_j30039001268428_3_alg».proof.Proof.Gen.KernelIdeal
import proofs.«428651_j30039001268428_3_alg».proof.Proof.Gen.KernelIdeal.Skeleton
import proofs.«428651_j30039001268428_3_alg».proof.Proof.Gen.KernelIdeal.Launch
import proofs.«428651_j30039001268428_3_alg».proof.Proof.Gen.KernelIdeal.Points
import proofs.«428651_j30039001268428_3_alg».proof.Proof.Gen.KernelIdeal.Frame
import proofs.«428651_j30039001268428_3_alg».proof.Proof.Gen.ReferenceIdeal
import proofs.«428651_j30039001268428_3_alg».proof.Proof.Gen.Pre_finite_inputs
import proofs.«428651_j30039001268428_3_alg».proof.Proof.Gen.KernelIdeal.Value
import proofs.«428651_j30039001268428_3_alg».proof.Proof.Gen.ReferenceIdeal.Run
import proofs.«428651_j30039001268428_3_alg».proof.Proof.Gen.ReferenceIdeal.Read
import proofs.«428651_j30039001268428_3_alg».proof.Proof.Spec
import proofs.«428651_j30039001268428_3_alg».proof.Proof.Scalar
import proofs.«428651_j30039001268428_3_alg».proof.Proof.PreDecode
import proofs.«428651_j30039001268428_3_alg».proof.Proof.KernelValue
import proofs.«428651_j30039001268428_3_alg».proof.Proof.KernelHost
import proofs.«428651_j30039001268428_3_alg».proof.Proof.RefValue
import Idealize.ShloMosaic.Adequacy
import Idealize.ShloMosaic.Init

noncomputable section

namespace Cert.Proof

open Idealize.ShloMosaic Idealize.ShloMosaic.TcCoe Idealize.SL.Sem Cert.Margin

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the logits and the labels, at `G` of them. -/
theorem algebraic : Cert.algebraic_KernelIdeal_ReferenceIdeal := by
  intro m ρ m' ρ' hpre hagree
  have hdec := fun c => pre_decode _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Value.run_blocks (F := Ideal) m ρ)
    rw [Cert.KernelIdeal.KerValue.final3, Cert.KernelIdeal.Gen.V_main_arg0]
    exact KG_eq_G _ _ _ _ (hdec c).1 (Cert.KernelIdeal.KerHost.host_labels m c (hdec c).1)
      (Cert.KernelIdeal.KerHost.host_target m c (hdec c).1)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v65_eq, (hagree c).1, (hagree c).2,
      Cert.ReferenceIdeal.RefValue.ref_eq _ _ (hdec c).1, GRef_eq_G _ _ (hdec c).2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
